-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x1024 : Shape := ⟨3, ![32, 32, 1024]⟩
abbrev S32x128x2048 : Shape := ⟨3, ![32, 128, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S_ : Shape := ⟨0, ![]⟩

class Facts : Prop where
  bcast_S_S32x32x1024 : S_.BroadcastsInDim S32x32x1024 (![] : Fin 0 → Fin S32x32x1024.rank)
  reducesTo_S32x32x1024_S_d0_1_2 : S32x32x1024.ReducesTo [0, 1, 2] S_
  h_S_ : 0 < S_.numel
  bcast_S_S32x128x2048 : S_.BroadcastsInDim S32x128x2048 (![] : Fin 0 → Fin S32x128x2048.rank)
  reducesTo_S32x128x2048_S_d0_1_2 : S32x128x2048.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S256x2048 : S_.BroadcastsInDim S256x2048 (![] : Fin 0 → Fin S256x2048.rank)
  reducesTo_S256x2048_S_d0_1 : S256x2048.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S32x32x1024 .f32) (main_arg1 : FVec F S32x128x2048 .f32) (main_arg2 : FVec F S256x1024 .f32) (main_arg3 : FVec F S256x2048 .f32) (main_arg4 : FVec F S256x256 .f32) (main_arg5 : FVec F S256 .f32) : IVec S_ 1 :=
  let main_v0 : FVec F S32x32x1024 .f32 := Host.absf main_arg0
  let main_cst : FVec F S_ .f32 := constant S_ .f32 0x7F800000#32
  let main_v1 : FVec F S32x32x1024 .f32 := broadcastInDim S32x32x1024 ![] bcast_S_S32x32x1024 main_cst
  let main_v2 : IVec S32x32x1024 1 := cmpf .olt main_v0 main_v1
  let main_c : IVec S_ 1 := constantI S_ 1 1#1
  let main_v3 : IVec S_ 1 := (fun x v => Host.reduce IntOp.andi x v reducesTo_S32x32x1024_S_d0_1_2 h_S_) main_v2 main_c
  let main_v4 : FVec F S32x128x2048 .f32 := Host.absf main_arg1
  let main_cst_0 : FVec F S_ .f32 := constant S_ .f32 0x7F800000#32
  let main_v5 : FVec F S32x128x2048 .f32 := broadcastInDim S32x128x2048 ![] bcast_S_S32x128x2048 main_cst_0
  let main_v6 : IVec S32x128x2048 1 := cmpf .olt main_v4 main_v5
  let main_c_1 : IVec S_ 1 := constantI S_ 1 1#1
  let main_v7 : IVec S_ 1 := (fun x v => Host.reduce IntOp.andi x v reducesTo_S32x128x2048_S_d0_1_2 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_v13 main_v16
-- ==== Kernel.lean ====
abbrev S32x32x1024 : Shape := ⟨3, ![32, 32, 1024]⟩
abbrev S32x128x2048 : Shape := ⟨3, ![32, 128, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S32x32x128x256 : Shape := ⟨4, ![32, 32, 128, 256]⟩
abbrev S1x32x1024 : Shape := ⟨3, ![1, 32, 1024]⟩
abbrev S1x128x2048 : Shape := ⟨3, ![1, 128, 2048]⟩
abbrev S1x32x128x256 : Shape := ⟨4, ![1, 32, 128, 256]⟩
abbrev S32x1024 : Shape := ⟨2, ![32, 1024]⟩
abbrev S128x2048 : Shape := ⟨2, ![128, 2048]⟩
abbrev S32x256 : Shape := ⟨2, ![32, 256]⟩
abbrev S128x256 : Shape := ⟨2, ![128, 256]⟩
abbrev S32x1x256 : Shape := ⟨3, ![32, 1, 256]⟩
abbrev S1x128x256 : Shape := ⟨3, ![1, 128, 256]⟩
abbrev S32x128x256 : Shape := ⟨3, ![32, 128, 256]⟩
abbrev S4096x256 : Shape := ⟨2, ![4096, 256]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S32x32x1024, .f32⟩
  | .hbm, ⟨1, _⟩ => ⟨S32x128x2048, .f32⟩
  | .hbm, ⟨2, _⟩ => ⟨S256x1024, .f32⟩
  | .hbm, ⟨3, _⟩ => ⟨S256x2048, .f32⟩
  | .hbm, ⟨4, _⟩ => ⟨S256x256, .f32⟩
  | .hbm, ⟨5, _⟩ => ⟨S256, .f32⟩
  | .hbm, ⟨6, _⟩ => ⟨S32x32x128x256, .f32⟩
  | .local _ .vmem, ⟨0, _⟩ => ⟨S1x32x1024, .f32⟩
  | .local _ .vmem, ⟨1, _⟩ => ⟨S1x32x1024, .f32⟩
  | .local _ .vmem, ⟨2, _⟩ => ⟨S1x128x2048, .f32⟩
  | .local _ .vmem, ⟨3, _⟩ => ⟨S1x128x2048, .f32⟩
  | .local _ .vmem, ⟨4, _⟩ => ⟨S256x1024, .f32⟩
  | .local _ .vmem, ⟨5, _⟩ => ⟨S256x2048, .f32⟩
  | .local _ .vmem, ⟨6, _⟩ => ⟨S256x256, .f32⟩
  | .local _ .vmem, ⟨7, _⟩ => ⟨S256, .f32⟩
  | .local _ .vmem, ⟨8, _⟩ => ⟨S1x32x128x256, .f32⟩
  | .local _ .vmem, ⟨9, _⟩ => ⟨S1x32x128x256, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  shapeCasts_S32x128x256_S4096x256 : S32x128x256.ShapeCasts S4096x256
  shapeCasts_S256_S1x256 : S256.ShapeCasts S1x256
  broadcasts_S1x256_S4096x256 : S1x256.Broadcasts S4096x256
  shapeCasts_S4096x256_S32x128x256 : S4096x256.ShapeCasts S32x128x256
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S32x128x256 : S1x32x128x256.ShapeCasts S32x128x256
  shapeCasts_S32x128x256_S1x32x128x256 : S32x128x256.ShapeCasts S1x32x128x256
  dot_S32x1024_S256x1024_S32x256_1_1_0_0_n_n_wf : DotDims.WF S32x1024 S256x1024 S32x256 [1] [1] [0] [0] [] []
  dot_S128x2048_S256x2048_S128x256_1_1_0_0_n_n_wf : DotDims.WF S128x2048 S256x2048 S128x256 [1] [1] [0] [0] [] []
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S32x32x1024.size a
  hwx0_0 : ∀ i : grid0.Coords, EltTy.bits .f32 = 32 ∨ (Rect.block (s := S32x32x1024) S1x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S32x128x2048.size a
  hwx0_1 : ∀ i : grid0.Coords, EltTy.bits .f32 = 32 ∨ (Rect.block (s := S32x128x2048) S1x128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .f32 = 32 ∨ (Rect.block (s := S256x2048) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x128x256.size a ≤ S32x32x128x256.size a
  hwx0_6 : ∀ i : grid0.Coords, EltTy.bits .f32 = 32 ∨ (Rect.block (s := S32x32x128x256) S1x32x128x256.size (cc0_transform_6 i) (hinb0_6 i)).WholeWords (EltTy.packing .f32)

variable [Facts₀]

def dot_S32x1024_S256x1024_S32x256_1_1_0_0_n_n : DotDims S32x1024 S256x1024 S32x256 where
  lhsContracting := [1]
  rhsContracting := [1]
  lhsNonContracting := [0]
  rhsNonContracting := [0]
  lhsBatch := []
  rhsBatch := []
  wf := dot_S32x1024_S256x1024_S32x256_1_1_0_0_n_n_wf
def dot_S128x2048_S256x2048_S128x256_1_1_0_0_n_n : DotDims S128x2048 S256x2048 S128x256 where
  lhsContracting := [1]
  rhsContracting := [1]
  lhsNonContracting := [0]
  rhsNonContracting := [0]
  lhsBatch := []
  rhsBatch := []
  wf := dot_S128x2048_S256x2048_S128x256_1_1_0_0_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg0) S1x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x32x128x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x32x1024 : Shape := ⟨3, ![32, 32, 1024]⟩
abbrev S32x128x2048 : Shape := ⟨3, ![32, 128, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S32x32x256 : Shape := ⟨3, ![32, 32, 256]⟩
abbrev S32x128x256 : Shape := ⟨3, ![32, 128, 256]⟩
abbrev S32x32x1x256 : Shape := ⟨4, ![32, 32, 1, 256]⟩
abbrev S32x1x128x256 : Shape := ⟨4, ![32, 1, 128, 256]⟩
abbrev S32x32x128x256 : Shape := ⟨4, ![32, 32, 128, 256]⟩
abbrev S1x1x1x256 : Shape := ⟨4, ![1, 1, 1, 256]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S32x128x2048, .f32⟩
  | .hbm, ⟨2, _⟩ => ⟨S256x1024, .f32⟩
  | .hbm, ⟨3, _⟩ => ⟨S256x2048, .f32⟩
  | .hbm, ⟨4, _⟩ => ⟨S256x256, .f32⟩
  | .hbm, ⟨5, _⟩ => ⟨S256, .f32⟩
  | .hbm, ⟨6, _⟩ => ⟨S32x32x256, .f32⟩
  | .hbm, ⟨7, _⟩ => ⟨S32x128x256, .f32⟩
  | .hbm, ⟨8, _⟩ => ⟨S32x32x1x256, .f32⟩
  | .hbm, ⟨9, _⟩ => ⟨S32x1x128x256, .f32⟩
  | .hbm, ⟨10, _⟩ => ⟨S32x32x128x256, .f32⟩
  | .hbm, ⟨11, _⟩ => ⟨S32x32x128x256, .f32⟩
  | .hbm, ⟨12, _⟩ => ⟨S32x32x128x256, .f32⟩
  | .hbm, ⟨13, _⟩ => ⟨S32x32x128x256, .f32⟩
  | .hbm, ⟨14, _⟩ => ⟨S1x1x1x256, .f32⟩
  | .hbm, ⟨15, _⟩ => ⟨S32x32x128x256, .f32⟩
  | .hbm, ⟨16, _⟩ => ⟨S32x32x128x256, .f32⟩
  | .hbm, ⟨17, _⟩ => ⟨S_, .f32⟩
  | .hbm, ⟨18, _⟩ => ⟨S32x32x128x256, .f32⟩
  | .hbm, ⟨19, _⟩ => ⟨S32x32x128x256, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S32x32x256_S32x32x1x256_0_1_3 : S32x32x256.BroadcastsInDim S32x32x1x256 (![0, 1, 3] : Fin 3 → Fin S32x32x1x256.rank)
  bcast_S32x128x256_S32x1x128x256_0_2_3 : S32x128x256.BroadcastsInDim S32x1x128x256 (![0, 2, 3] : Fin 3 → Fin S32x1x128x256.rank)
  bcast_S32x32x1x256_S32x32x128x256_0_1_2_3 : S32x32x1x256.BroadcastsInDim S32x32x128x256 (![0, 1, 2, 3] : Fin 4 → Fin S32x32x128x256.rank)
  bcast_S32x1x128x256_S32x32x128x256_0_1_2_3 : S32x1x128x256.BroadcastsInDim S32x32x128x256 (![0, 1, 2, 3] : Fin 4 → Fin S32x32x128x256.rank)
  bcast_S256_S1x1x1x256_3 : S256.BroadcastsInDim S1x1x1x256 (![3] : Fin 1 → Fin S1x1x1x256.rank)
  bcast_S1x1x1x256_S32x32x128x256_0_1_2_3 : S1x1x1x256.BroadcastsInDim S32x32x128x256 (![0, 1, 2, 3] : Fin 4 → Fin S32x32x128x256.rank)
  bcast_S_S32x32x128x256 : S_.BroadcastsInDim S32x32x128x256 (![] : Fin 0 → Fin S32x32x128x256.rank)
  dot_S32x32x1024_S256x1024_S32x32x256_2_1_01_0_n_n_wf : DotDims.WF S32x32x1024 S256x1024 S32x32x256 [2] [1] [0, 1] [0] [] []
  dot_S32x128x2048_S256x2048_S32x128x256_2_1_01_0_n_n_wf : DotDims.WF S32x128x2048 S256x2048 S32x128x256 [2] [1] [0, 1] [0] [] []
  dot_S32x32x128x256_S256x256_S32x32x128x256_3_1_012_0_n_n_wf : DotDims.WF S32x32x128x256 S256x256 S32x32x128x256 [3] [1] [0, 1, 2] [0] [] []

variable [Facts₀]

def dot_S32x32x1024_S256x1024_S32x32x256_2_1_01_0_n_n : DotDims S32x32x1024 S256x1024 S32x32x256 where
  lhsContracting := [2]
  rhsContracting := [1]
  lhsNonContracting := [0, 1]
  rhsNonContracting := [0]
  lhsBatch := []
  rhsBatch := []
  wf := dot_S32x32x1024_S256x1024_S32x32x256_2_1_01_0_n_n_wf
def dot_S32x128x2048_S256x2048_S32x128x256_2_1_01_0_n_n : DotDims S32x128x2048 S256x2048 S32x128x256 where
  lhsContracting := [2]
  rhsContracting := [1]
  lhsNonContracting := [0, 1]
  rhsNonContracting := [0]
  lhsBatch := []
  rhsBatch := []
  wf := dot_S32x128x2048_S256x2048_S32x128x256_2_1_01_0_n_n_wf
def dot_S32x32x128x256_S256x256_S32x32x128x256_3_1_012_0_n_n : DotDims S32x32x128x256 S256x256 S32x32x128x256 where
  lhsContracting := [3]
  rhsContracting := [1]
  lhsNonContracting := [0, 1, 2]
  rhsNonContracting := [0]
  lhsBatch := []
  rhsBatch := []
  wf := dot_S32x32x128x256_S256x256_S32x32x128x256_3_1_012_0_n_n_wf

class Facts : Prop extends Facts₀ where

variable [Facts]
-- ==== Proof.Spec.lean ====
/-
  The low-rank bilinear fusion, entry by entry.

  A language row x (1024 numbers) and a region row y (2048 numbers) are each projected to 256 ranks,
  a k = Σ_d x d · Wu (k, d) and c k = Σ_e y e · Wv (k, e); the two projections are multiplied rank by rank, the product is
  projected by Wp, the bias is added and the result is clamped below at zero:

      entry f  =  max ( Σ_k (a k · c k) · Wp (f, k) + bp f , 0 ).

  The fused array holds, at (b, p, n, f), this entry for language row p and region row n of batch b. Every sum keeps the
  order and grouping written here, so nothing about finiteness of the inputs is used anywhere.
-/
import Idealize.ShloMosaic.PureOps.Ideal
import Idealize.ShloMosaic.Lib.ValueIdx

noncomputable section

namespace Cert.Fusion

open Idealize.ShloMosaic Idealize.ShloMosaic.ValueIdx

/-- One output entry from one language row, one region row, the three weight matrices and the bias. -/
def cell (x : Fin 1024 → EReal) (y : Fin 2048 → EReal)
    (Wu : FVec Ideal ⟨2, ![256, 1024]⟩ .f32) (Wv : FVec Ideal ⟨2, ![256, 2048]⟩ .f32)
    (Wp : FVec Ideal ⟨2, ![256, 256]⟩ .f32) (bp : FVec Ideal ⟨1, ![256]⟩ .f32) (f : Fin 256) : EReal :=
  max ((∑ k : Fin 256, ((∑ d : Fin 1024, x d * Wu (ix2 k d)) * (∑ e : Fin 2048, y e * Wv (ix2 k e))) * Wp (ix2 f k))
        + bp (ix1 f))
      (Ideal.ofBits .f32 0x00000000#32)

/-- The fused array: at (b, p, n, f) the entry of language row (b, p) and region row (b, n). -/
def fused (u : FVec Ideal ⟨3, ![32, 32, 1024]⟩ .f32) (v : FVec Ideal ⟨3, ![32, 128, 2048]⟩ .f32)
    (Wu : FVec Ideal ⟨2, ![256, 1024]⟩ .f32) (Wv : FVec Ideal ⟨2, ![256, 2048]⟩ .f32)
    (Wp : FVec Ideal ⟨2, ![256, 256]⟩ .f32) (bp : FVec Ideal ⟨1, ![256]⟩ .f32) :
    FVec Ideal ⟨4, ![32, 32, 128, 256]⟩ .f32 :=
  fun i => cell (fun d => u (ix3 (i 0) (i 1) d)) (fun e => v (ix3 (i 0) (i 2) e)) Wu Wv Wp bp (i 3)

theorem fused_apply (u : FVec Ideal ⟨3, ![32, 32, 1024]⟩ .f32) (v : FVec Ideal ⟨3, ![32, 128, 2048]⟩ .f32)
    (Wu : FVec Ideal ⟨2, ![256, 1024]⟩ .f32) (Wv : FVec Ideal ⟨2, ![256, 2048]⟩ .f32)
    (Wp : FVec Ideal ⟨2, ![256, 256]⟩ .f32) (bp : FVec Ideal ⟨1, ![256]⟩ .f32)
    (b : Fin 32) (p : Fin 32) (n : Fin 128) (f : Fin 256) :
    fused u v Wu Wv Wp bp (ix4 b p n f)
      = cell (fun d => u (ix3 b p d)) (fun e => v (ix3 b n e)) Wu Wv Wp bp f := rfl

end Cert.Fusion

end
-- ==== Proof.LibMatmulT.lean ====
/-
  A matrix times the transpose of another, read at an index.

  For an M×K left operand and an N×K right operand, both contracted on their second axis and with no batch axes, the
  product accumulated into the zero matrix is, at (p, q), the sum over k of the left operand at (p, k) times the right
  operand at (q, k): row p of the left against row q of the right.
-/
import Idealize.ShloMosaic.PureOps.Ideal.Laws
import Idealize.ShloMosaic.Lib.ValueIdx

noncomputable section

namespace Cert.MatmulT

open Idealize.ShloMosaic Idealize.ShloMosaic.ValueIdx

/-- At output (p, q) and contraction position k the left operand is read at (p, k): its first axis follows the
    output's first, its second is the contracted one. -/
theorem lhsIdx_transposedRhs {M K N : Nat} (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 p q) _).trans hk

/-- At output (p, q) and contraction position k the right operand is read at (q, k): its first axis follows the
    output's second, its second is the contracted one. -/
theorem rhsIdx_transposedRhs {M K N : Nat} (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 p q) _).trans hk

/-- The product into the zero matrix, read at (p, q): the sum over k of l (p, k) · r (q, k). -/
theorem matmul_zero_apply {M K N : Nat} {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

end Cert.MatmulT

end
-- ==== Proof.LibLayout.lean ====
/-
  Reshapes and broadcasts of small ranks, read at an index written by coordinates.

  Two arrays laid out row-major over the same number of entries are re-readings of one another: entry (p, n, k) of an
  a×b×c array is entry (p·b + n, k) of the (a·b)×c array it flattens to, and the other way round. A unit axis put in the
  middle of a matrix adds nothing to the position. A broadcast along an axis of extent one reads the operand at
  coordinate 0 on that axis, whatever the coordinate asked for.
-/
import Idealize.ShloMosaic.Lib.Pipeline.Value
import Idealize.ShloMosaic.Lib.ValueIdx

noncomputable section

namespace Cert.Layout

open Idealize.ShloMosaic Idealize.ShloMosaic.ValueIdx

variable {α : Type}

/-- An a×b×c array flattened to r×c (r = a·b) reads, at (row, k) with row = p·b + n, the operand at (p, n, k). -/
theorem shapeCast_abc_rc_apply {a b c r : ℕ} (x : (⟨3, ![a, b, c]⟩ : Shape).Idx → α)
    (h : (⟨3, ![a, b, c]⟩ : Shape).ShapeCasts ⟨2, ![r, c]⟩) (p : Fin a) (n : Fin b) (k : Fin c) (row : Fin r)
    (hrow : row.val = p.val * b + n.val) :
    shapeCast ⟨2, ![r, c]⟩ x h (ix2 row k) = x (ix3 p n k) :=
  shapeCast_apply x h _ _ (by
    rw [Shape.rowMajor_val_three, Shape.rowMajor_val_two]
    show (p.val * b + n.val) * c + k.val = row.val * c + k.val
    rw [hrow])

/-- An r×c array (r = a·b) unflattened to a×b×c reads, at (p, n, k), the operand at (row, k) with row = p·b + n. -/
theorem shapeCast_rc_abc_apply {a b c r : ℕ} (y : (⟨2, ![r, c]⟩ : Shape).Idx → α)
    (h : (⟨2, ![r, c]⟩ : Shape).ShapeCasts ⟨3, ![a, b, c]⟩) (p : Fin a) (n : Fin b) (k : Fin c) (row : Fin r)
    (hrow : row.val = p.val * b + n.val) :
    shapeCast ⟨3, ![a, b, c]⟩ y h (ix3 p n k) = y (ix2 row k) :=
  shapeCast_apply y h _ _ (by
    rw [Shape.rowMajor_val_three, Shape.rowMajor_val_two]
    show row.val * c + k.val = (p.val * b + n.val) * c + k.val
    rw [hrow])

/-- An a×c matrix given a unit middle axis reads, at (p, u, k), the operand at (p, k). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- An a×1×c array broadcast along its middle axis to a×b×c reads, at (p, n, k), the operand at (p, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (n : Fin b) (k : Fin c) :
    broadcastTo ⟨3, ![a, b, c]⟩ x h (ix3 p n k) = x (ix3 p (0 : Fin 1) k) := by
  refine broadcastTo_apply x h (ix3 p n k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A 1×b×c array broadcast along its leading axis to a×b×c reads, at (p, n, k), the operand at (0, n, k). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (n : Fin b) (k : Fin c) :
    broadcastTo ⟨3, ![a, b, c]⟩ x h (ix3 p n k) = x (ix3 (0 : Fin 1) n k) := by
  refine broadcastTo_apply x h (ix3 p n k) (ix3 (0 : Fin 1) n k) fun ax => ?_
  match ax with
  | ⟨0, _⟩ => rfl
  | ⟨1, _⟩ =>
    show n.val = if b = 1 then 0 else n.val
    split
    · have := n.isLt; omega
    · rfl
  | ⟨2, _⟩ =>
    show k.val = if c = 1 then 0 else k.val
    split
    · have := k.isLt; omega
    · rfl

end Cert.Layout

end
-- ==== Proof.KernelBody.lean ====
/-
  What the kernel body stores, entry by entry.

  The body works on one batch: a 32×1024 block of language rows, a 128×2048 block of region rows and the whole weight
  arrays. Each of its three matrix products contracts the second axis of both operands, so each is a product of rows:
  up (p, k) = Σ_d x (p, d) · Wu (k, d), vp (n, k) = Σ_e y (n, e) · Wv (k, e), and the projection by Wp reads row f of Wp.
  Between them the body forms up (p, k) · vp (n, k) over (p, n, k) by broadcasting, and flattens (p, n) to the row
  p·128 + n of a 4096×256 matrix; after the last product it unflattens the same way. Rounding to the shorter float
  format changes nothing over the extended reals. So the stored entry at (p, n, f) is the specification's entry for
  language row p and region row n of the block.
-/
import proofs.«169072_j35648228556885_1_alg».proof.Proof.Gen.KernelIdeal.Skeleton
import proofs.«169072_j35648228556885_1_alg».proof.Proof.Spec
import proofs.«169072_j35648228556885_1_alg».proof.Proof.LibMatmulT
import proofs.«169072_j35648228556885_1_alg».proof.Proof.LibLayout
import Idealize.ShloMosaic.Lib.ValueLayout

noncomputable section

namespace Cert.Fusion.KernelSide

open Cert.KernelIdeal Cert.KernelIdeal.Gen Idealize.ShloMosaic Idealize.ShloMosaic.ValueIdx

/-! ## The three products are products of rows -/

theorem dotU_eq : dot_S32x1024_S256x1024_S32x256_1_1_0_0_n_n = DotDims.transposedRhs 32 1024 256 := rfl
theorem dotV_eq : dot_S128x2048_S256x2048_S128x256_1_1_0_0_n_n = DotDims.transposedRhs 128 2048 256 := rfl
theorem dotP_eq : dot_S4096x256_S256x256_S4096x256_1_1_0_0_n_n = DotDims.transposedRhs 4096 256 256 := rfl

/-- A product of two matrices rounded to the shorter format, contracted on the second axis of both, into the zero
    matrix: at (p, q), row p of the first against row q of the second. -/
theorem proj_apply {M K N : Nat} (D : DotDims ⟨2, ![M, K]⟩ ⟨2, ![N, K]⟩ ⟨2, ![M, N]⟩) (hD : D = DotDims.transposedRhs M K N)
    (a : FVec Ideal ⟨2, ![M, K]⟩ .f32) (w : FVec Ideal ⟨2, ![N, K]⟩ .f32) (h : FTy.bits .bf16 < FTy.bits .f32)
    (p : Fin M) (q : Fin N) :
    matmul D none (truncf .bf16 a h) (truncf .bf16 w h) (constant (F := Ideal) ⟨2, ![M, N]⟩ .f32 0x00000000#32) (ix2 p q)
      = ∑ k : Fin K, a (ix2 p k) * w (ix2 q k) := by
  subst hD
  exact Cert.MatmulT.matmul_zero_apply none _ _ p q

/-- The language projection of the block: row p of the block against row k of Wu. -/
theorem up_apply (x0 : Vec Ideal S1x32x1024 .f32) (x2 : Vec Ideal S256x1024 .f32) (p : Fin 32) (k : Fin 256) :
    matmul dot_S32x1024_S256x1024_S32x256_1_1_0_0_n_n none
        (truncf .bf16 (shapeCast S32x1024 x0 shapeCasts_S1x32x1024_S32x1024) bitsLt_bf16_f32) (truncf .bf16 x2 bitsLt_bf16_f32)
        (constant (F := Ideal) S32x256 .f32 0x00000000#32) (ix2 p k)
      = ∑ d : Fin 1024, x0 (ix3 (0 : Fin 1) p d) * x2 (ix2 k d) := by
  rw [proj_apply _ dotU_eq]
  refine Finset.sum_congr rfl fun d _ => ?_
  rw [shapeCast_1ab_ab_apply]

/-- The region projection of the block: row n of the block against row k of Wv. -/
theorem vp_apply (x1 : Vec Ideal S1x128x2048 .f32) (x3 : Vec Ideal S256x2048 .f32) (n : Fin 128) (k : Fin 256) :
    matmul dot_S128x2048_S256x2048_S128x256_1_1_0_0_n_n none
        (truncf .bf16 (shapeCast S128x2048 x1 shapeCasts_S1x128x2048_S128x2048) bitsLt_bf16_f32) (truncf .bf16 x3 bitsLt_bf16_f32)
        (constant (F := Ideal) S128x256 .f32 0x00000000#32) (ix2 n k)
      = ∑ e : Fin 2048, x1 (ix3 (0 : Fin 1) n e) * x3 (ix2 k e) := by
  rw [proj_apply _ dotV_eq]
  refine Finset.sum_congr rfl fun e _ => ?_
  rw [shapeCast_1ab_ab_apply]

/-! ## The broadcast product, read through the flattening -/

/-- Row p·128 + n, column k, of the flattened broadcast product is A (p, k) · B (n, k). -/
theorem prod_apply (A : FVec Ideal S32x256 .f32) (B : FVec Ideal S128x256 .f32) (p : Fin 32) (n : Fin 128) (k : Fin 256)
    (row : Fin 4096) (hrow : row.val = p.val * 128 + n.val) :
    shapeCast S4096x256
        (mulf (broadcastTo S32x128x256 (shapeCast S32x1x256 A shapeCasts_S32x256_S32x1x256) broadcasts_S32x1x256_S32x128x256)
          (broadcastTo S32x128x256 (shapeCast S1x128x256 B shapeCasts_S128x256_S1x128x256) broadcasts_S1x128x256_S32x128x256))
        shapeCasts_S32x128x256_S4096x256 (ix2 row k)
      = A (ix2 p k) * B (ix2 n k) := by
  rw [Cert.Layout.shapeCast_abc_rc_apply _ _ p n k row hrow, mulf_apply, Cert.Layout.broadcastTo_a1c_abc_apply,
    Cert.Layout.broadcastTo_1bc_abc_apply, Cert.Layout.shapeCast_ac_a1c_apply, shapeCast_ab_1ab_apply]

/-! ## The last product, the bias and the clamp -/

/-- Row `row`, column f, after the projection by Wp, the bias and the clamp at zero. -/
theorem out_apply (Pm : FVec Ideal S4096x256 .f32) (x4 : Vec Ideal S256x256 .f32) (x5 : Vec Ideal S256 .f32)
    (row : Fin 4096) (f : Fin 256) :
    maximumf
        (addf (matmul dot_S4096x256_S256x256_S4096x256_1_1_0_0_n_n none (truncf .bf16 Pm bitsLt_bf16_f32)
            (truncf .bf16 x4 bitsLt_bf16_f32) (constant (F := Ideal) S4096x256 .f32 0x00000000#32))
          (broadcastTo S4096x256 (shapeCast S1x256 x5 shapeCasts_S256_S1x256) broadcasts_S1x256_S4096x256))
        (broadcast S4096x256 (Scalar.ofBits (F := Ideal) .f32 0x00000000#32)) (ix2 row f)
      = max ((∑ k : Fin 256, Pm (ix2 row k) * x4 (ix2 f k)) + x5 (ix1 f)) (Ideal.ofBits .f32 0x00000000#32) := by
  rw [maximumf_apply, addf_apply, proj_apply _ dotP_eq, broadcastTo_1b_ab_apply, shapeCast_a_1a_apply]
  rfl

/-! ## The stored entry -/

/-- The body's stored value at (u, p, n, f) is the specification's entry for language row p and region row n of the
    block. -/
theorem pay_apply (x0 : Vec Ideal S1x32x1024 .f32) (x1 : Vec Ideal S1x128x2048 .f32) (x2 : Vec Ideal S256x1024 .f32)
    (x3 : Vec Ideal S256x2048 .f32) (x4 : Vec Ideal S256x256 .f32) (x5 : Vec Ideal S256 .f32)
    (u : Fin 1) (p : Fin 32) (n : Fin 128) (f : Fin 256) :
    k0_pay1 (F := Ideal) x0 x1 x2 x3 x4 x5 (ix4 u p n f)
      = Cert.Fusion.cell (fun d => x0 (ix3 (0 : Fin 1) p d)) (fun e => x1 (ix3 (0 : Fin 1) n e)) x2 x3 x4 x5 f := by
  have hlt : p.val * 128 + n.val < 4096 := by have := p.isLt; have := n.isLt; omega
  have hrow : (⟨p.val * 128 + n.val, hlt⟩ : Fin 4096).val = p.val * 128 + n.val := rfl
  unfold k0_pay1
  rw [shapeCast_abc_1abc_apply, Cert.Layout.shapeCast_rc_abc_apply _ _ p n f ⟨p.val * 128 + n.val, hlt⟩ hrow, out_apply]
  simp only [prod_apply _ _ p n _ ⟨p.val * 128 + n.val, hlt⟩ hrow, up_apply, vp_apply]
  rfl

end Cert.Fusion.KernelSide

end
-- ==== Proof.KernelRun.lean ====
/-
  From blocks to the array: the kernel's result is the fused array.

  The grid has 32 points, one per batch. At point t the language window holds batch t of u (a 1×32×1024 block), the region
  window batch t of v (1×128×2048), the four weight windows their whole arrays, and the output window is block t of the
  result (1×32×128×256). So what point t writes back is, at (0, p, n, f), the specification's entry for language row
  (t, p) and region row (t, n): block t of the fused array. The 32 output blocks tile the result along its first axis,
  so after the run the result array is the fused array of the argument arrays.
-/
import proofs.«169072_j35648228556885_1_alg».proof.Proof.Gen.KernelIdeal.Value
import proofs.«169072_j35648228556885_1_alg».proof.Proof.KernelBody

noncomputable section

namespace Cert.Fusion.KernelRun

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The batch a grid point works on. -/
def batch (t : Fin cfg0.N) : Fin 32 := ⟨t.val, by have h : t.val < grid0.N := t.isLt; rw [N_0] at h; exact h⟩

theorem batch_val (t : Fin cfg0.N) : (batch t).val = t.val := rfl

/-- The index maps, decided over the grid: the language, region and output windows sit at block t of their first axis and
    block 0 of the others; the weight windows at block 0 of every axis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 4) = t.val ∧ win0_6.index t (1 : Fin 4) = 0 ∧ win0_6.index t (2 : Fin 4) = 0
    ∧ win0_6.index t (3 : Fin 4) = 0 :=
  (by decide +kernel : ∀ t : Fin grid0.N, _)

/-! ## The weight windows hold their whole arrays -/

theorem blk2_eq (c : Dev nD) (t : Fin cfg0.N) : iblk m c 2 t = V m c main_arg2 := by
  obtain ⟨-, -, -, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 256 + 1 * (y 0).val = (y 0).val; omega
  | ⟨1, _⟩ => show win0_2.index t (1 : Fin 2) * 1024 + 1 * (y 1).val = (y 1).val; omega

theorem blk3_eq (c : Dev nD) (t : Fin cfg0.N) : iblk m c 3 t = V m c main_arg3 := by
  obtain ⟨-, -, -, -, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 2048 + 1 * (y 1).val = (y 1).val; omega

theorem blk4_eq (c : Dev nD) (t : Fin cfg0.N) : iblk m c 4 t = V m c main_arg4 := by
  obtain ⟨-, -, -, -, -, -, -, -, -, -, e0, e1, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem blk5_eq (c : Dev nD) (t : Fin cfg0.N) : iblk m c 5 t = V m c main_arg5 := by
  obtain ⟨-, -, -, -, -, -, -, -, -, -, -, -, e0, -⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 1) * 256 + 1 * (y 0).val = (y 0).val; omega

/-! ## The language and region windows hold one batch -/

/-- Row p of the language block at point t is language row (t, p). -/
theorem blk0_apply (c : Dev nD) (t : Fin cfg0.N) (p : Fin 32) (d : Fin 1024) :
    iblk m c 0 t (ix3 (0 : Fin 1) p d) = V m c main_arg0 (ix3 (batch t) p d) := by
  obtain ⟨e0, e1, e2, -⟩ := idx_facts t
  show V m c main_arg0 (((cfg0.win 0).blk t).view.emb (ix3 (0 : Fin 1) p d)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 32 + 1 * p.val = p.val; omega
  | ⟨2, _⟩ => show win0_0.index t (2 : Fin 3) * 1024 + 1 * d.val = d.val; omega

/-- Row n of the region block at point t is region row (t, n). -/
theorem blk1_apply (c : Dev nD) (t : Fin cfg0.N) (n : Fin 128) (e : Fin 2048) :
    iblk m c 1 t (ix3 (0 : Fin 1) n e) = V m c main_arg1 (ix3 (batch t) n e) := by
  obtain ⟨-, -, -, e0, e1, e2, -⟩ := idx_facts t
  show V m c main_arg1 (((cfg0.win 1).blk t).view.emb (ix3 (0 : Fin 1) n e)) = _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 128 + 1 * n.val = n.val; omega
  | ⟨2, _⟩ => show win0_1.index t (2 : Fin 3) * 2048 + 1 * e.val = e.val; omega

/-! ## The output window is block t of the result -/

/-- Entry (0, p, n, f) of the output block at point t is entry (t, p, n, f) of the result. -/
theorem emb6 (t : Fin cfg0.N) (j : S1x32x128x256.Idx) :
    ((cfg0.win 6).blk t).view.emb j = ix4 (batch t) (j 1) (j 2) (j 3) := by
  obtain ⟨-, -, -, -, -, -, -, -, -, -, -, -, -, o0, o1, o2, o3⟩ := idx_facts t
  funext a
  apply Fin.ext
  match a with
  | ⟨0, _⟩ => show win0_6.index t (0 : Fin 4) * 1 + 1 * (j 0).val = t.val; have hj : (j 0).val < 1 := (j 0).isLt; omega
  | ⟨1, _⟩ => show win0_6.index t (1 : Fin 4) * 32 + 1 * (j 1).val = (j 1).val; omega
  | ⟨2, _⟩ => show win0_6.index t (2 : Fin 4) * 128 + 1 * (j 2).val = (j 2).val; omega
  | ⟨3, _⟩ => show win0_6.index t (3 : Fin 4) * 256 + 1 * (j 3).val = (j 3).val; omega

/-- The fused array of the argument arrays as the region finds them. -/
abbrev target (c : Dev nD) : S32x32x128x256.Idx → Elt Ideal .f32 :=
  Cert.Fusion.fused (V m c main_arg0) (V m c main_arg1) (V m c main_arg2) (V m c main_arg3) (V m c main_arg4) (V m c main_arg5)

/-- What point t writes back is block t of the fused array. -/
theorem flushed_eq (c : Dev nD) (t : Fin cfg0.N) :
    (dats m 0 c).flushed 6 t = ((cfg0.win 6).blk t).view.read (Elt Ideal) (target m c) := by
  rw [Cert.KernelIdeal.Value.flushed6]
  unfold out0_6
  rw [View.canon_unit_zero hz4]
  simp only [View.ld_unit_zero (S := S1x32x1024) hz3, View.ld_unit_zero (S := S1x128x2048) hz3,
    View.ld_unit_zero (S := S256x1024) hz2, View.ld_unit_zero (S := S256x2048) hz2, View.ld_unit_zero (S := S256x256) hz2,
    View.ld_unit_zero (S := S256) hz1]
  funext j
  show k0_pay1 (F := Ideal) (iblk m c 0 t) (iblk m c 1 t) (iblk m c 2 t) (iblk m c 3 t) (iblk m c 4 t) (iblk m c 5 t) j
      = target m c (((cfg0.win 6).blk t).view.emb j)
  rw [emb6 t j, blk2_eq, blk3_eq, blk4_eq, blk5_eq]
  refine (congrArg (k0_pay1 (F := Ideal) (iblk m c 0 t) (iblk m c 1 t) (V m c main_arg2) (V m c main_arg3) (V m c main_arg4)
    (V m c main_arg5)) (eq_ix4 j)).trans ?_
  refine (Cert.Fusion.KernelSide.pay_apply (iblk m c 0 t) (iblk m c 1 t) (V m c main_arg2) (V m c main_arg3) (V m c main_arg4)
    (V m c main_arg5) (j 0) (j 1) (j 2) (j 3)).trans ?_
  have h0 : (fun d : Fin 1024 => iblk m c 0 t (ix3 (0 : Fin 1) (j 1) d)) = fun d => V m c main_arg0 (ix3 (batch t) (j 1) d) :=
    funext fun d => blk0_apply m c t (j 1) d
  have h1 : (fun e : Fin 2048 => iblk m c 1 t (ix3 (0 : Fin 1) (j 2) e)) = fun e => V m c main_arg1 (ix3 (batch t) (j 2) e) :=
    funext fun e => blk1_apply m c t (j 2) e
  refine (congrArg₂ (fun x y => Cert.Fusion.cell x y (V m c main_arg2) (V m c main_arg3) (V m c main_arg4) (V m c main_arg5) (j 3))
    h0 h1).trans ?_
  exact (Cert.Fusion.fused_apply (V m c main_arg0) (V m c main_arg1) (V m c main_arg2) (V m c main_arg3) (V m c main_arg4)
    (V m c main_arg5) (batch t) (j 1) (j 2) (j 3)).symm

/-- An index of the result is in point t's block iff each coordinate is in the block's range on its axis. -/
theorem mem_blk6 (t : Fin cfg0.N) (i : S32x32x128x256.Idx) :
    i ∈ ((cfg0.win 6).blk t).view.set ↔ ∀ a : Fin 4, win0_6.index t a * S1x32x128x256.size a ≤ (i a).val
      ∧ (i a).val < win0_6.index t a * S1x32x128x256.size a + S1x32x128x256.size a := by
  show i ∈ ((View.whole main_v0).slice (win0_6.rect t)).set ↔ _
  rw [View.set_slice_whole, Rect.mem_set_unit]
  exact Iff.rfl

/-- The 32 output blocks tile the result, so it ends holding the fused array. -/
theorem final (c : Dev nD) : (dats m 0 c).arrAt 6 cfg0.N = target m c :=
  (dats m 0 c).arrAt_eq_of_cover 6 (target m c) (fun t _ => flushed_eq m c t) fun i => by
    have hi0 : (i 0).val < 32 := (i 0).isLt
    have hi1 : (i 1).val < 32 := (i 1).isLt
    have hi2 : (i 2).val < 128 := (i 2).isLt
    have hi3 : (i 3).val < 256 := (i 3).isLt
    have hN : (i 0).val < grid0.N := by rw [N_0]; exact hi0
    refine ⟨⟨(i 0).val, hN⟩, flush0_6 _, ?_⟩
    rw [mem_blk6]
    obtain ⟨-, -, -, -, -, -, -, -, -, -, -, -, -, o0, o1, o2, o3⟩ := idx_facts ⟨(i 0).val, hN⟩
    intro a
    match a with
    | ⟨0, _⟩ =>
      show win0_6.index ⟨(i 0).val, hN⟩ (0 : Fin 4) * 1 ≤ (i 0).val ∧ (i 0).val < win0_6.index ⟨(i 0).val, hN⟩ (0 : Fin 4) * 1 + 1
      have : (⟨(i 0).val, hN⟩ : Fin cfg0.N).val = (i 0).val := rfl
      omega
    | ⟨1, _⟩ =>
      show win0_6.index ⟨(i 0).val, hN⟩ (1 : Fin 4) * 32 ≤ (i 1).val ∧ (i 1).val < win0_6.index ⟨(i 0).val, hN⟩ (1 : Fin 4) * 32 + 32
      omega
    | ⟨2, _⟩ =>
      show win0_6.index ⟨(i 0).val, hN⟩ (2 : Fin 4) * 128 ≤ (i 2).val ∧ (i 2).val < win0_6.index ⟨(i 0).val, hN⟩ (2 : Fin 4) * 128 + 128
      omega
    | ⟨3, _⟩ =>
      show win0_6.index ⟨(i 0).val, hN⟩ (3 : Fin 4) * 256 ≤ (i 3).val ∧ (i 3).val < win0_6.index ⟨(i 0).val, hN⟩ (3 : Fin 4) * 256 + 256
      omega

/-! ## The run, read -/

/-- Every weakly fair execution of the kernel program ends with the result array at the fused array of the argument
    arrays, the arguments unchanged. -/
theorem run : θ_run defs (onTc (τ := τ) (main (F := Ideal))) ⟨m, fun _ => 0, ρ⟩ fun r => ∀ c : Dev nD,
      r.2.mem ((c : Thread nD τ).loc main_v0)
        = Cert.Fusion.fused (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Fusion.KernelRun

end
-- ==== Proof.RefSide.lean ====
/-
  The reference computes the fused array.

  Read one operation at a time, the reference's result at (b, p, n, f) is
  max ( Σ_k (up (b, p, k) · vp (b, n, k)) · Wp (f, k) + bp f , 0 ), where up and vp are the two projections as plain sums:
  the broadcasts only repeat up along the region axis and vp along the language axis, and each contraction reads its
  left operand along its last axis and the weight matrix along its second. That is the specification's entry for
  language row (b, p) and region row (b, n).
-/
import proofs.«169072_j35648228556885_1_alg».proof.Proof.Gen.ReferenceIdeal.Read
import proofs.«169072_j35648228556885_1_alg».proof.Proof.Spec

noncomputable section

namespace Cert.Fusion.RefSide

open Cert.ReferenceIdeal Cert.ReferenceIdeal.Read Idealize.ShloMosaic Idealize.ShloMosaic.ValueIdx

/-- The reference's last stage is the fused array, index by index. -/
theorem ref_is_fused (x0 : (⟨S32x32x1024, .f32⟩ : BufTy).Contents (Elt Ideal)) (x1 : (⟨S32x128x2048, .f32⟩ : BufTy).Contents (Elt Ideal))
    (x2 : (⟨S256x1024, .f32⟩ : BufTy).Contents (Elt Ideal)) (x3 : (⟨S256x2048, .f32⟩ : BufTy).Contents (Elt Ideal))
    (x4 : (⟨S256x256, .f32⟩ : BufTy).Contents (Elt Ideal)) (x5 : (⟨S256, .f32⟩ : BufTy).Contents (Elt Ideal)) :
    val_main_v11 (F := Ideal) x0 x1 x2 x3 x4 x5 = Cert.Fusion.fused x0 x1 x2 x3 x4 x5 := by
  funext i
  -- the language projection is read along row (i 0, i 1) of u and row k of Wu
  have eu : ∀ (k : Fin 256) (d : Fin 1024),
      lidx_main_v0 (idx_main_v2 (idx_main_v4 (lidx_main_v7 i k))) d = ix3 (i 0) (i 1) d := fun k d =>
    funext fun a => by match a with | ⟨0, _⟩ => rfl | ⟨1, _⟩ => rfl | ⟨2, _⟩ => rfl
  have ewu : ∀ (k : Fin 256) (d : Fin 1024),
      ridx_main_v0 (idx_main_v2 (idx_main_v4 (lidx_main_v7 i k))) d = ix2 k d := fun k d =>
    funext fun a => by match a with | ⟨0, _⟩ => rfl | ⟨1, _⟩ => rfl
  -- the region projection along row (i 0, i 2) of v and row k of Wv
  have ev : ∀ (k : Fin 256) (e : Fin 2048),
      lidx_main_v1 (idx_main_v3 (idx_main_v5 (lidx_main_v7 i k))) e = ix3 (i 0) (i 2) e := fun k e =>
    funext fun a => by match a with | ⟨0, _⟩ => rfl | ⟨1, _⟩ => rfl | ⟨2, _⟩ => rfl
  have ewv : ∀ (k : Fin 256) (e : Fin 2048),
      ridx_main_v1 (idx_main_v3 (idx_main_v5 (lidx_main_v7 i k))) e = ix2 k e := fun k e =>
    funext fun a => by match a with | ⟨0, _⟩ => rfl | ⟨1, _⟩ => rfl
  -- the last projection reads row (i 3) of Wp, the bias entry (i 3)
  have ewp : ∀ k : Fin 256, ridx_main_v7 i k = ix2 (i 3) k := fun k =>
    funext fun a => by match a with | ⟨0, _⟩ => rfl | ⟨1, _⟩ => rfl
  have ebp : idx_main_v8 (idx_main_v9 i) = ix1 (i 3) :=
    funext fun a => by match a with | ⟨0, _⟩ => rfl
  rw [val_main_v11_apply, val_main_v10_apply, val_main_v7_apply, val_main_v9_apply, val_main_v8_apply,
    val_main_call0_v0_apply, val_main_call0_cst_apply]
  simp only [val_main_v6_apply, val_main_v4_apply, val_main_v2_apply, val_main_v0_apply, val_main_v5_apply,
    val_main_v3_apply, val_main_v1_apply, eu, ewu, ev, ewv, ewp, ebp]
  rfl

end Cert.Fusion.RefSide

end
-- ==== Proof.lean ====
/-
  Low-rank bilinear fusion: a fused kernel against its einsum reference, over the extended reals.

  Both programs take language rows u (32 batches × 32 rows × 1024), region rows v (32 × 128 × 2048), weights Wu (256×1024),
  Wv (256×2048), Wp (256×256) and a bias bp (256), and produce at (b, p, n, f)

      max ( Σ_k (up (b, p, k) · vp (b, n, k)) · Wp (f, k) + bp f , 0 ),
      up (b, p, k) = Σ_d u (b, p, d) · Wu (k, d),   vp (b, n, k) = Σ_e v (b, n, e) · Wv (k, e).

  The reference writes this with three contractions, two broadcasts and a clamp on whole arrays. The kernel works one batch
  per grid point: it rounds its operands to a shorter float format (the identity on extended reals), forms up and vp as
  products of rows, multiplies them over (p, n, k) by broadcasting, flattens (p, n) to one row index for the projection by
  Wp, adds the bias, clamps, and unflattens. Neither side regroups or distributes a sum, so the two results agree term by
  term and the finiteness of the inputs is never used.

  The kernel's result array is read off its generated frame run block by block; the reference's off its generated run one
  operation at a time; both are shown to be the one function `Cert.Fusion.fused` of the argument arrays. The three frames are
  the generated ones, and there is nothing to preserve between the kernel and its idealization (no operation was rewritten).
-/
import proofs.«169072_j35648228556885_1_alg».proof.Defs
import proofs.«169072_j35648228556885_1_alg».proof.Proof.Gen.Kernel
import proofs.«169072_j35648228556885_1_alg».proof.Proof.Gen.Kernel.Skeleton
import proofs.«169072_j35648228556885_1_alg».proof.Proof.Gen.Kernel.Launch
import proofs.«169072_j35648228556885_1_alg».proof.Proof.Gen.Kernel.Points
import proofs.«169072_j35648228556885_1_alg».proof.Proof.Gen.Kernel.Frame
import proofs.«169072_j35648228556885_1_alg».proof.Proof.Gen.KernelIdeal
import proofs.«169072_j35648228556885_1_alg».proof.Proof.Gen.KernelIdeal.Skeleton
import proofs.«169072_j35648228556885_1_alg».proof.Proof.Gen.KernelIdeal.Launch
import proofs.«169072_j35648228556885_1_alg».proof.Proof.Gen.KernelIdeal.Points
import proofs.«169072_j35648228556885_1_alg».proof.Proof.Gen.KernelIdeal.Frame
import proofs.«169072_j35648228556885_1_alg».proof.Proof.Gen.ReferenceIdeal
import proofs.«169072_j35648228556885_1_alg».proof.Proof.Gen.Pre_finite_inputs
import proofs.«169072_j35648228556885_1_alg».proof.Proof.Gen.KernelIdeal.Value
import proofs.«169072_j35648228556885_1_alg».proof.Proof.Gen.ReferenceIdeal.Run
import proofs.«169072_j35648228556885_1_alg».proof.Proof.Gen.ReferenceIdeal.Read
import proofs.«169072_j35648228556885_1_alg».proof.Proof.KernelRun
import proofs.«169072_j35648228556885_1_alg».proof.Proof.RefSide
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array and the reference's both end at the fused
    array of those arguments. -/
theorem algebraic : Cert.algebraic_KernelIdeal_ReferenceIdeal := by
  intro m ρ m' ρ' _ hagree
  refine ⟨_, Cert.Fusion.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v11_eq _ _ _ _ _ _).trans (Cert.Fusion.RefSide.ref_is_fused _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
